-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 22
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S1x8192, .f32⟩
  | .hbm, ⟨19, _⟩ => ⟨S8192x4096, .bf16⟩
  | .hbm, ⟨20, _⟩ => ⟨S8192x4096, .bf16⟩
  | .hbm, ⟨21, _⟩ => ⟨S8192x8192, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  transposes_S8192x1_S1x8192_1_0 : S8192x1.Transposes [1, 0] S1x8192
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x4096.size a
  hwx0_1 : ∀ i : grid0.Coords, EltTy.bits .bf16 = 32 ∨ (Rect.block (s := S8192x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v7) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x8192, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  dot_S8192x4096_S8192x4096_S8192x8192_1_1_0_0_n_n_wf : DotDims.WF S8192x4096 S8192x4096 S8192x8192 [1] [1] [0] [0] [] []

variable [Facts₀]

def dot_S8192x4096_S8192x4096_S8192x8192_1_1_0_0_n_n : DotDims S8192x4096 S8192x4096 S8192x8192 where
  lhsContracting := [1]
  rhsContracting := [1]
  lhsNonContracting := [0]
  rhsNonContracting := [0]
  lhsBatch := []
  rhsBatch := []
  wf := dot_S8192x4096_S8192x4096_S8192x8192_1_1_0_0_n_n_wf

class Facts : Prop extends Facts₀ where

variable [Facts]
-- ==== Proof.Pieces.lean ====
/-
  What each control case of the tiled body leaves behind, as pure terms of the tiles it was given.

  The body has three cases along the contraction axis of the grid.  At the first chunk it stores zero into the
  accumulator and then the update over it; at a middle chunk it stores the update over what the chunk before
  left; at the last chunk it does the same and then stores the epilogue of the updated accumulator into the
  output tile.  Every store covers its whole buffer and every load reads a whole buffer, so reading the stores
  back gives the stored term itself, with the loaded tiles in the places of the loads — at any float instance.
-/
import proofs.«161089_j46729244180934_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

/-- Every store and load of the body starts at the origin of its buffer. -/
theorem origin : (![0, 0] : Fin 2 → Nat) = fun _ => 0 := funext fun a => by fin_cases a <;> rfl

/-- First chunk: the accumulator ends at the update of the reset value. -/
theorem acc_first (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 : Vec F S1024x512 .bf16) (x1 : Vec F S1024x512 .bf16) (x2 : Vec F S1024x1 .f32) (x3 : Vec F S1x1024 .f32) :
    sout0_A_0 c i arg3 harg3 arg4 harg4 arg5 harg5 arg6 harg6 arg7 harg7 arg8 harg8 hc0 hc1 x0 x1 x2 x3 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, View.ld_unit_zero (S := S1024x512) origin]

/-- Middle chunk: the accumulator ends at the update of what the chunk before left. -/
theorem acc_middle (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 : Vec F S1024x512 .bf16) (x1 : Vec F S1024x512 .bf16) (x2 : Vec F S1024x1 .f32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 xs0 x0 x1 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero origin]
  simp only [View.readAt_eq_ld, harg8.read_unread, harg3.read_unread, harg4.read_unread,
    View.ld_unit_zero (S := S1024x1024) origin, View.ld_unit_zero (S := S1024x512) origin]

/-- Last chunk: the accumulator likewise, -/
theorem acc_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x512 .bf16) (x1 : Vec F S1024x512 .bf16) (x2 : Vec F S1024x1 .f32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 xs0 x0 x1 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero origin]
  simp only [View.readAt_eq_ld, harg8.read_unread, harg3.read_unread, harg4.read_unread,
    View.ld_unit_zero (S := S1024x1024) origin, View.ld_unit_zero (S := S1024x512) origin]

/-- and the output tile ends at the epilogue of the updated accumulator. -/
theorem out_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x512 .bf16) (x1 : Vec F S1024x512 .bf16) (x2 : Vec F S1024x1 .f32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 x2 x3 (k0_pay2 xs0 x0 x1) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero origin]
  simp only [View.readAt_eq_ld, harg8.read_unread, harg3.read_unread, harg4.read_unread, harg5.read_unread, harg6.read_unread,
    View.readCov_unit_zero (S := S1024x1024) _ origin,
    View.ld_unit_zero (S := S1024x1024) origin, View.ld_unit_zero (S := S1024x512) origin,
    View.ld_unit_zero (S := S1024x1) origin, View.ld_unit_zero (S := S1x1024) origin]

end Cert.KernelIdeal.Pieces

end
-- ==== Proof.Payload.lean ====
/-
  The three pure terms the tiled body stores, read at one entry (p, q) of the 1024 × 1024 tile, over the extended
  reals:

    * the reset value is zero everywhere;
    * the update adds to the accumulator's entry the inner product, over the 512 columns of the current chunk,
      of row p of the left tile with row q of the right tile (both tiles are 1024 × 512 and the contraction is
      over their second axes, so no transposition appears);
    * the epilogue divides the accumulator's entry by the product of the p-th entry of the column of left norms
      and the q-th entry of the row of right norms (each broadcast along the other axis).

  A change of float format is the identity on the extended reals, and the shape casts are between equal shapes.
-/
import proofs.«161089_j46729244180934_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.TcCoe Idealize.ShloMosaic.ValueIdx
open Cert.KernelIdeal Cert.KernelIdeal.Gen

/-! ## The contraction's operand indices, axis by axis -/

theorem lhs_axis0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_axis1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_axis0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_axis1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The tile product into a zero accumulator, at entry (p, q): the inner product of row p of the left tile with
    row q of the right tile. -/
theorem tile_product_apply (a b : FVec Ideal S1024x512 .bf16) (p q : Fin 1024) :
    matmul (F := Ideal) dot_S1024x512_S1024x512_S1024x1024_1_1_0_0_n_n none a b (constant (F := Ideal) S1024x1024 .f32 0x00000000#32) (ix2 p q)
      = ∑ kk : Fin 512, a (ix2 p kk) * b (ix2 q kk) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-! ## The three stored terms at an entry -/

/-- The reset value: zero. -/
theorem reset_apply (y : S1024x1024.Idx) : k0_pay1 (F := Ideal) y = 0 := by
  unfold k0_pay1
  simp only [shapeCast_self]
  show Ideal.ofBits .f32 0x00000000#32 = 0
  exact Ideal.ofBits_zero_f32

/-- The update: the accumulator's entry plus the chunk's inner product. -/
theorem update_apply (acc : Vec Ideal S1024x1024 .f32) (a b : Vec Ideal S1024x512 .bf16) (p q : Fin 1024) :
    k0_pay2 (F := Ideal) acc a b (ix2 p q) = acc (ix2 p q) + ∑ kk : Fin 512, a (ix2 p kk) * b (ix2 q kk) := by
  unfold k0_pay2
  simp only [shapeCast_self]
  rw [addf_apply]
  exact congrArg (acc (ix2 p q) + ·) (tile_product_apply a b p q)

/-- The epilogue: the accumulator's entry over the product of the two norms. -/
theorem epilogue_apply (xn : Vec Ideal S1024x1 .f32) (wn : Vec Ideal S1x1024 .f32) (acc : Vec Ideal S1024x1024 .f32)
    (p q : Fin 1024) :
    k0_pay3 (F := Ideal) xn wn acc (ix2 p q) = Ideal.div (acc (ix2 p q)) (xn (ix2 p 0) * wn (ix2 0 q)) := by
  unfold k0_pay3
  simp only [shapeCast_self]
  rw [divf_apply, mulf_apply]
  have h1 : broadcastTo S1024x1024 (xn : FVec Ideal S1024x1 .f32) broadcasts_S1024x1_S1024x1024 (ix2 p q) = xn (ix2 p 0) :=
    broadcastTo_apply _ broadcasts_S1024x1_S1024x1024 (ix2 p q) (ix2 p 0) (fun a => match a with
      | ⟨0, _⟩ => by show p.val = if (1024 : Nat) = 1 then 0 else p.val; rw [if_neg (by decide)]
      | ⟨1, _⟩ => by show 0 = if (1 : Nat) = 1 then 0 else q.val; rw [if_pos rfl])
  have h2 : broadcastTo S1024x1024 (wn : FVec Ideal S1x1024 .f32) broadcasts_S1x1024_S1024x1024 (ix2 p q) = wn (ix2 0 q) :=
    broadcastTo_apply _ broadcasts_S1x1024_S1024x1024 (ix2 p q) (ix2 0 q) (fun a => match a with
      | ⟨0, _⟩ => by show 0 = if (1 : Nat) = 1 then 0 else p.val; rw [if_pos rfl]
      | ⟨1, _⟩ => by show q.val = if (1024 : Nat) = 1 then 0 else q.val; rw [if_neg (by decide)])
  rw [h1, h2]

end Cert.KernelIdeal.Payload

end
-- ==== Proof.BlockSum.lean ====
/-
  Regrouping a sum over a long axis into a sum of sums over consecutive chunks.

  For `f : ℕ → M` in any commutative additive monoid, the sum of `f` over `0 … a·b - 1` is the sum over the
  `a` chunks `s = 0 … a - 1` of the chunk sums `Σ_{r < b} f (b·s + r)`.  Only commutativity and associativity of
  `+` are used, so the law holds on the extended reals without any finiteness hypothesis: a contraction over 4096
  terms accumulated chunk by chunk (eight chunks of 512) is the contraction done at once.
-/
import Mathlib.Algebra.BigOperators.Fin
import Mathlib.Algebra.BigOperators.Intervals

namespace Cert.BlockSum

open Finset

variable {M : Type*} [AddCommMonoid M]

/-- A range sum over `a·b` terms, chunk by chunk. -/
theorem sum_range_chunks (f : ℕ → M) (a b : ℕ) :
    ∑ s ∈ range a, ∑ r ∈ range b, f (b * s + r) = ∑ k ∈ range (a * b), f k := by
  induction a with
  | zero => simp
  | succ a ih =>
    rw [sum_range_succ, ih, Nat.succ_mul, sum_range_add, Nat.mul_comm a b]

/-- The same with the inner and the whole sum over `Fin`: the form a contraction index has. -/
theorem sum_fin_chunks (f : ℕ → M) (a b : ℕ) :
    ∑ s ∈ range a, ∑ r : Fin b, f (b * s + r.val) = ∑ k : Fin (a * b), f k.val := by
  rw [Fin.sum_univ_eq_sum_range (fun k => f k) (a * b), ← sum_range_chunks f a b]
  refine sum_congr rfl fun s _ => ?_
  exact Fin.sum_univ_eq_sum_range (fun r => f (b * s + r)) b

end Cert.BlockSum
-- ==== Proof.Spec.lean ====
/-
  The cosine-similarity table, as ONE function of the two matrices and the two vectors of row norms, over the
  extended reals:

      table X W XN WN (r, c) = (Σ_{k < 4096} X[r, k] · W[c, k]) / (XN[r, 0] · WN[0, c])

  `X`, `W` are 8192 × 4096; `XN` is the column 8192 × 1 of the (clamped) Euclidean norms of `X`'s rows and `WN` the
  row 1 × 8192 of those of `W`'s rows.  How the norms are computed never matters below: both programs compute them
  with the same host operations, so they stay two opaque arrays.

  The tiled program contracts the long axis in eight consecutive chunks of 512 and adds the chunk sums into an
  accumulator that starts at zero.  `dot_chunks` says that this is the contraction done at once: a regrouping of a
  finite sum, which needs only that `+` on the extended reals is commutative and associative — no finiteness.
  To speak of "entry (r, k)" for natural numbers `r`, `k` that arithmetic on grid coordinates produces, `at2`
  reads a matrix at a pair of naturals (zero outside the matrix; never reached).
-/
import Idealize.ShloMosaic.PureOps.Ideal
import Idealize.ShloMosaic.Lib.ValueIdx
import proofs.«161089_j46729244180934_1_alg».proof.Proof.BlockSum

noncomputable section

namespace Cert.Cosine

open Idealize.ShloMosaic Idealize.ShloMosaic.ValueIdx

/-- The inner product of row `r` of `X` with row `c` of `W`. -/
def dot (X W : FVec Ideal (⟨2, ![8192, 4096]⟩ : Shape) .f32) (r c : Fin 8192) : EReal :=
  ∑ k : Fin 4096, X (ix2 r k) * W (ix2 c k)

/-- One entry of the table. -/
def cell (X W : FVec Ideal (⟨2, ![8192, 4096]⟩ : Shape) .f32) (XN : FVec Ideal (⟨2, ![8192, 1]⟩ : Shape) .f32)
    (WN : FVec Ideal (⟨2, ![1, 8192]⟩ : Shape) .f32) (r c : Fin 8192) : EReal :=
  Ideal.div (dot X W r c) (XN (ix2 r 0) * WN (ix2 0 c))

/-- The whole table. -/
def table (X W : FVec Ideal (⟨2, ![8192, 4096]⟩ : Shape) .f32) (XN : FVec Ideal (⟨2, ![8192, 1]⟩ : Shape) .f32)
    (WN : FVec Ideal (⟨2, ![1, 8192]⟩ : Shape) .f32) : FVec Ideal (⟨2, ![8192, 8192]⟩ : Shape) .f32 :=
  fun i => cell X W XN WN (i 0) (i 1)

theorem table_apply (X W : FVec Ideal (⟨2, ![8192, 4096]⟩ : Shape) .f32) (XN : FVec Ideal (⟨2, ![8192, 1]⟩ : Shape) .f32)
    (WN : FVec Ideal (⟨2, ![1, 8192]⟩ : Shape) .f32) (r c : Fin 8192) :
    table X W XN WN (ix2 r c) = cell X W XN WN r c := rfl

/-- A matrix read at a pair of naturals: its entry inside, zero outside. -/
def at2 (X : FVec Ideal (⟨2, ![8192, 4096]⟩ : Shape) .f32) (r k : ℕ) : EReal :=
  if h : r < 8192 ∧ k < 4096 then X (ix2 ⟨r, h.1⟩ ⟨k, h.2⟩) else 0

theorem at2_of_lt (X : FVec Ideal (⟨2, ![8192, 4096]⟩ : Shape) .f32) (r k : ℕ) (hr : r < 8192) (hk : k < 4096) :
    at2 X r k = X (ix2 ⟨r, hr⟩ ⟨k, hk⟩) := dif_pos ⟨hr, hk⟩

/-- The part of the inner product of rows `r`, `c` that chunk `s` of the long axis (columns `512 s … 512 s + 511`)
    contributes. -/
def chunk (X W : FVec Ideal (⟨2, ![8192, 4096]⟩ : Shape) .f32) (r c s : ℕ) : EReal :=
  ∑ kk : Fin 512, at2 X r (512 * s + kk.val) * at2 W c (512 * s + kk.val)

/-- The eight chunk sums add up to the inner product. -/
theorem dot_chunks (X W : FVec Ideal (⟨2, ![8192, 4096]⟩ : Shape) .f32) (r c : Fin 8192) :
    ∑ s ∈ Finset.range 8, chunk X W r.val c.val s = dot X W r c := by
  unfold chunk dot
  rw [Cert.BlockSum.sum_fin_chunks (fun k => at2 X r.val k * at2 W c.val k) 8 512]
  show ∑ k : Fin 4096, at2 X r.val k.val * at2 W c.val k.val = _
  refine Finset.sum_congr rfl fun k _ => ?_
  rw [at2_of_lt X _ _ r.isLt k.isLt, at2_of_lt W _ _ c.isLt k.isLt]

end Cert.Cosine

end
-- ==== Proof.Blocks.lean ====
/-
  Where the tiles come from.

  The grid has 8 × 8 × 8 points, numbered `t = 64 i + 8 j + k` (row tile `i`, column tile `j`, chunk `k` of the
  contracted axis).  At point `t` the left tile is rows `1024 i …` and columns `512 k …` of the left matrix, the
  right tile rows `1024 j …` and columns `512 k …` of the right matrix, the two norm tiles are entries `1024 i …`
  of the column of left norms and `1024 j …` of the row of right norms, and the output tile is rows `1024 i …`,
  columns `1024 j …` of the result.  The index maps are decided once over the 512 points; a tile's entry is then
  its array's entry at block index × block size + offset.

  The arrays the tiles are cut from are what the host operations before the launch leave: the two matrices
  converted to a narrower float format — the identity on the extended reals — and the clamped row norms, the
  right one transposed into a row.
-/
import proofs.«161089_j46729244180934_1_alg».proof.Proof.Gen.KernelIdeal.Frame
import proofs.«161089_j46729244180934_1_alg».proof.Proof.Spec
import Idealize.ShloMosaic.Lib.Pipeline.Value
import Idealize.ShloMosaic.Lib.StableHlo.Run
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen Cert.Cosine

variable (m : (ℓ : Loc nD τ sig) → Buf (Elt Ideal) ℓ)

/-! ## The index maps over the grid -/

theorem index_maps : ∀ t : Fin cfg0.N,
    win0_0.index t (0 : Fin 2) = t.val / 64 ∧ win0_0.index t (1 : Fin 2) = t.val % 8
    ∧ win0_1.index t (0 : Fin 2) = t.val / 8 % 8 ∧ win0_1.index t (1 : Fin 2) = t.val % 8
    ∧ win0_2.index t (0 : Fin 2) = t.val / 64 ∧ win0_2.index t (1 : Fin 2) = 0
    ∧ win0_3.index t (0 : Fin 2) = 0 ∧ win0_3.index t (1 : Fin 2) = t.val / 8 % 8
    ∧ win0_4.index t (0 : Fin 2) = t.val / 64 ∧ win0_4.index t (1 : Fin 2) = t.val / 8 % 8 :=
  (by decide +kernel : ∀ t : Fin grid0.N, _)

theorem point_lt (t : Fin cfg0.N) : t.val < 512 := lt_of_lt_of_eq t.isLt N_0

/-! ## The four arrays the input windows stage, named at their literal types -/

abbrev leftArr (c : Dev nD) : FVec Ideal S8192x4096 .f32 := V m c main_v7
abbrev rightArr (c : Dev nD) : FVec Ideal S8192x4096 .f32 := V m c main_v8
abbrev leftNorms (c : Dev nD) : FVec Ideal S8192x1 .f32 := V m c main_v2
abbrev rightNorms (c : Dev nD) : FVec Ideal S1x8192 .f32 := V m c main_v6

/-! ## A tile's entry is its array's entry -/

/-- The left tile at point `t`, entry (p, kk): the left matrix at row `1024 (t / 64) + p`, column `512 (t % 8) + kk`. -/
theorem left_tile (c : Dev nD) (t : Fin cfg0.N) (p : Fin 1024) (kk : Fin 512) :
    (iblk m c 0 t : Vec Ideal S1024x512 .bf16) (ix2 p kk)
      = at2 (leftArr m c) (1024 * (t.val / 64) + p.val) (512 * (t.val % 8) + kk.val) := by
  have hN := point_lt t
  obtain ⟨e0, e1, -⟩ := index_maps t
  rw [at2_of_lt _ _ _ (by omega) (by omega)]
  unfold iblk
  rw [View.read_apply]
  show V m c main_v7 _ = V m c main_v7 _
  congr 1
  funext a
  apply Fin.ext
  match a with
  | ⟨0, _⟩ => show win0_0.index t (0 : Fin 2) * 1024 + 1 * p.val = 1024 * (t.val / 64) + p.val; rw [e0]; omega
  | ⟨1, _⟩ => show win0_0.index t (1 : Fin 2) * 512 + 1 * kk.val = 512 * (t.val % 8) + kk.val; rw [e1]; omega

/-- The right tile at point `t`, entry (q, kk): the right matrix at row `1024 (t / 8 % 8) + q`, column `512 (t % 8) + kk`. -/
theorem right_tile (c : Dev nD) (t : Fin cfg0.N) (q : Fin 1024) (kk : Fin 512) :
    (iblk m c 1 t : Vec Ideal S1024x512 .bf16) (ix2 q kk)
      = at2 (rightArr m c) (1024 * (t.val / 8 % 8) + q.val) (512 * (t.val % 8) + kk.val) := by
  have hN := point_lt t
  obtain ⟨-, -, e0, e1, -⟩ := index_maps t
  rw [at2_of_lt _ _ _ (by omega) (by omega)]
  unfold iblk
  rw [View.read_apply]
  show V m c main_v8 _ = V m c main_v8 _
  congr 1
  funext a
  apply Fin.ext
  match a with
  | ⟨0, _⟩ => show win0_1.index t (0 : Fin 2) * 1024 + 1 * q.val = 1024 * (t.val / 8 % 8) + q.val; rw [e0]; omega
  | ⟨1, _⟩ => show win0_1.index t (1 : Fin 2) * 512 + 1 * kk.val = 512 * (t.val % 8) + kk.val; rw [e1]; omega

/-- The tile of left norms at point `t`, entry p: the column of left norms at `1024 (t / 64) + p`. -/
theorem leftNorm_tile (c : Dev nD) (t : Fin cfg0.N) (p : Fin 1024) (r : Fin 8192) (hr : r.val = 1024 * (t.val / 64) + p.val) :
    (iblk m c 2 t : Vec Ideal S1024x1 .f32) (ix2 p 0) = leftNorms m c (ix2 r 0) := by
  obtain ⟨-, -, -, -, e0, e1, -⟩ := index_maps t
  unfold iblk
  rw [View.read_apply]
  show V m c main_v2 _ = V m c main_v2 _
  congr 1
  funext a
  apply Fin.ext
  match a with
  | ⟨0, _⟩ => show win0_2.index t (0 : Fin 2) * 1024 + 1 * p.val = r.val; rw [e0, hr]; omega
  | ⟨1, _⟩ => show win0_2.index t (1 : Fin 2) * 1 + 1 * 0 = 0; rw [e1]

/-- The tile of right norms at point `t`, entry q: the row of right norms at `1024 (t / 8 % 8) + q`. -/
theorem rightNorm_tile (c : Dev nD) (t : Fin cfg0.N) (q : Fin 1024) (s : Fin 8192) (hs : s.val = 1024 * (t.val / 8 % 8) + q.val) :
    (iblk m c 3 t : Vec Ideal S1x1024 .f32) (ix2 0 q) = rightNorms m c (ix2 0 s) := by
  obtain ⟨-, -, -, -, -, -, e0, e1, -⟩ := index_maps t
  unfold iblk
  rw [View.read_apply]
  show V m c main_v6 _ = V m c main_v6 _
  congr 1
  funext a
  apply Fin.ext
  match a with
  | ⟨0, _⟩ => show win0_3.index t (0 : Fin 2) * 1 + 1 * 0 = 0; rw [e0]
  | ⟨1, _⟩ => show win0_3.index t (1 : Fin 2) * 1024 + 1 * q.val = s.val; rw [e1, hs]; omega

/-! ## What the host operations before the launch leave -/

/-- The clamped Euclidean norms of a matrix's rows, as the host computes them: the square root of the row sums
    of squares, then the maximum with a small positive constant.  The same operations compute it in the other
    program, so the term is never opened. -/
def rowNorms (A : FVec Ideal S8192x4096 .f32) : FVec Ideal S8192x1 .f32 :=
  maximumf (Host.sqrt (broadcastInDim S8192x1 ![0] bcast_S8192_S8192x1_0 (Host.reduceAdd (mulf A A) (constant (F := Ideal) S_ .f32 0x00000000#32) reducesTo_S8192x4096_S8192_d1 h_S_)))
    (broadcastInDim S8192x1 ![] bcast_S_S8192x1 (constant (F := Ideal) S_ .f32 0x322BCC77#32))

theorem leftArr_eq (c : Dev nD) : leftArr m c = m ((c : Thread nD τ).loc main_arg0) := by
  show V m c main_v7 = _
  dsimp only [V]
  simp only [hostOps0, hostOps0_1, hostOps0_2, hostOps0_3, List.flatten_cons, List.flatten_nil, List.append_nil, List.cons_append,
    List.nil_append]
  after_results
  rfl

theorem rightArr_eq (c : Dev nD) : rightArr m c = m ((c : Thread nD τ).loc main_arg1) := by
  show V m c main_v8 = _
  dsimp only [V]
  simp only [hostOps0, hostOps0_1, hostOps0_2, hostOps0_3, List.flatten_cons, List.flatten_nil, List.append_nil, List.cons_append,
    List.nil_append]
  after_results
  rfl

theorem leftNorms_eq (c : Dev nD) : leftNorms m c = rowNorms (m ((c : Thread nD τ).loc main_arg0)) := by
  show V m c main_v2 = _
  dsimp only [V]
  simp only [hostOps0, hostOps0_1, hostOps0_2, hostOps0_3, List.flatten_cons, List.flatten_nil, List.append_nil, List.cons_append,
    List.nil_append]
  after_results
  rfl

theorem rightNorms_eq (c : Dev nD) :
    rightNorms m c = transpose S1x8192 [1, 0] (rowNorms (m ((c : Thread nD τ).loc main_arg1))) transposes_S8192x1_S1x8192_1_0 := by
  show V m c main_v6 = _
  dsimp only [V]
  simp only [hostOps0, hostOps0_1, hostOps0_2, hostOps0_3, List.flatten_cons, List.flatten_nil, List.append_nil, List.cons_append,
    List.nil_append]
  after_results
  rfl

end Cert.KernelIdeal.Blocks

end
-- ==== Proof.Fold.lean ====
/-
  What the accumulator holds after any grid point, entry by entry.

  Point `n` adds to entry (p, q) of the accumulator the part of the inner product of row `1024 (n / 64) + p` of the
  left matrix with row `1024 (n / 8 % 8) + q` of the right matrix that chunk `n % 8` of the long axis contributes
  (`addend`).  The first point of each run of eight resets the accumulator to zero first.  So after point `t` the
  entry is zero plus the addends of the points from the start `8 (t / 8)` of `t`'s run up to `t`; within a run the
  row and column tiles do not move and the chunk index counts 0 … 7, so after the run's last point (`t % 8 = 7`)
  the entry is the whole inner product — the eight chunk sums regrouped into one sum.
-/
import proofs.«161089_j46729244180934_1_alg».proof.Proof.Gen.KernelIdeal.Value
import proofs.«161089_j46729244180934_1_alg».proof.Proof.Pieces
import proofs.«161089_j46729244180934_1_alg».proof.Proof.Payload
import proofs.«161089_j46729244180934_1_alg».proof.Proof.Blocks
import Idealize.ShloMosaic.Lib.Pipeline.Value

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.Value Cert.KernelIdeal.Blocks Cert.Cosine

variable (m : (ℓ : Loc nD τ sig) → Buf (Elt Ideal) ℓ)

/-- What point `n` adds to entry `y` of the accumulator. -/
def addend (c : Dev nD) (n : ℕ) (y : S1024x1024.Idx) : EReal :=
  chunk (leftArr m c) (rightArr m c) (1024 * (n / 64) + (y 0).val) (1024 * (n / 8 % 8) + (y 1).val) (n % 8)

/-- The update term at a point's tiles: the accumulator plus the point's addend. -/
theorem update_at (c : Dev nD) (t : Fin cfg0.N) (acc : Vec Ideal S1024x1024 .f32) (y : S1024x1024.Idx) :
    k0_pay2 (F := Ideal) acc (iblk m c 0 t) (iblk m c 1 t) y = acc y + addend m c t.val y := by
  obtain ⟨p, q, rfl⟩ : ∃ (p : Fin 1024) (q : Fin 1024), y = ix2 p q := ⟨y 0, y 1, eq_ix2 y⟩
  refine (Payload.update_apply acc (iblk m c 0 t) (iblk m c 1 t) p q).trans ?_
  unfold addend chunk
  refine congrArg (acc (ix2 p q) + ·) (Finset.sum_congr rfl fun kk _ => ?_)
  rw [left_tile m c t p kk, right_tile m c t q kk]

/-- At the first point of a run the accumulator is reset: it ends at zero plus the point's addend, whatever it held. -/
theorem reset_at (c : Dev nD) (n : ℕ) (h8 : n % 8 = 0) (h : n < cfg0.N) (junk : Vec Ideal S1024x1024 .f32) (y : S1024x1024.Idx) :
    scAt0_0 m c n h junk y = 0 + addend m c n y := by
  unfold scAt0_0
  rw [dif_pos h8, dif_neg (by omega)]
  refine (congrFun (Pieces.acc_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N))) y).trans ?_
  refine (update_at m c (⟨n, h⟩ : Fin cfg0.N) (k0_pay1 (F := Ideal)) y).trans ?_
  rw [Payload.reset_apply]

/-- At every other point it ends at what the point before left plus the point's addend. -/
theorem step_at (c : Dev nD) (n : ℕ) (h8 : ¬n % 8 = 0) (h : n < cfg0.N) (acc : Vec Ideal S1024x1024 .f32) (y : S1024x1024.Idx) :
    scAt0_0 m c n h acc y = acc y + addend m c n y := by
  unfold scAt0_0
  rw [dif_neg h8]
  by_cases h7 : n % 8 = 7
  · rw [dif_pos h7]
    exact (congrFun (Pieces.acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) y).trans (update_at m c (⟨n, h⟩ : Fin cfg0.N) acc y)
  · rw [dif_neg h7]
    exact (congrFun (Pieces.acc_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) y).trans (update_at m c (⟨n, h⟩ : Fin cfg0.N) acc y)

/-- After point `t`: zero plus the addends of the points of `t`'s run up to `t`. -/
theorem acc_after (c : Dev nD) (t : Fin cfg0.N) (y : S1024x1024.Idx) :
    (outsAt0 m c t.val t.isLt).2 y = 0 + ∑ s ∈ Finset.range (t.val % 8 + 1), addend m c (8 * (t.val / 8) + s) y := by
  have hN := point_lt t
  rw [soutsAt0_0_eq m c t]
  exact Pipeline.accAt_add_apply (fun n h => scAt0_0 m c n h (VS0_0.read (Elt Ideal) VS0_0.junk)) (scAt0_0 m c)
    (fun _ => (0 : EReal)) (addend m c) (8 * (t.val / 8)) 7
    (fun h y => reset_at m c _ (by omega) h _ y)
    (fun n h acc y hlt hle => step_at m c n (by omega) h acc y)
    (t.val % 8) (by omega) _ y

/-- After the last point of a run the accumulator's entry (p, q) is the inner product of the run's row of the left
    matrix with its row of the right matrix. -/
theorem acc_at_last (c : Dev nD) (t : Fin cfg0.N) (h7 : t.val % 8 = 7) (p q : Fin 1024) (r s : Fin 8192)
    (hr : r.val = 1024 * (t.val / 64) + p.val) (hs : s.val = 1024 * (t.val / 8 % 8) + q.val) :
    (outsAt0 m c t.val t.isLt).2 (ix2 p q) = dot (leftArr m c) (rightArr m c) r s := by
  have hN := point_lt t
  rw [acc_after m c t (ix2 p q), h7, zero_add, ← dot_chunks]
  refine Finset.sum_congr rfl fun k hk => ?_
  have hk8 : k < 8 := Finset.mem_range.mp hk
  show chunk (leftArr m c) (rightArr m c) (1024 * ((8 * (t.val / 8) + k) / 64) + p.val)
      (1024 * ((8 * (t.val / 8) + k) / 8 % 8) + q.val) ((8 * (t.val / 8) + k) % 8)
    = chunk (leftArr m c) (rightArr m c) r.val s.val k
  rw [hr, hs]
  have e1 : (8 * (t.val / 8) + k) / 64 = t.val / 64 := by omega
  have e2 : (8 * (t.val / 8) + k) / 8 % 8 = t.val / 8 % 8 := by omega
  have e3 : (8 * (t.val / 8) + k) % 8 = k := by omega
  rw [e1, e2, e3]

/-- At the last point of a run the output tile is the epilogue of the accumulator as that point leaves it. -/
theorem out_at_last (c : Dev nD) (t : Fin cfg0.N) (h7 : t.val % 8 = 7) :
    (outsAt0 m c t.val t.isLt).1
      = k0_pay3 (F := Ideal) (iblk m c 2 t) (iblk m c 3 t) ((outsAt0 m c t.val t.isLt).2) := by
  have h0 : ¬t.val % 8 = 0 := by omega
  rw [outsAt0_C m c t h0 h7]
  dsimp only
  rw [Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _, Pieces.acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _]

end Cert.KernelIdeal.Fold

end
-- ==== Proof.KernelValue.lean ====
/-
  The result array of the tiled program is the table.

  The output tile is written back once per run of eight points, after the run's last point, and there it holds
  the epilogue of the finished accumulator: entry (p, q) is the inner product of row `1024 i + p` of the left matrix
  with row `1024 j + q` of the right matrix, over the product of the two rows' norms — the table's entry at
  `(1024 i + p, 1024 j + q)`, which is exactly where the tile's entry (p, q) sits in the result.  The 64 tiles
  written back cover the result (entry (r, s) lies in the tile of the run `i = r / 1024`, `j = s / 1024`), so the
  result array ends at the table.  Last, the arrays the tiles were cut from are rewritten to what the host
  operations before the launch computed of the arguments.
-/
import proofs.«161089_j46729244180934_1_alg».proof.Proof.Fold

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelIdeal.Blocks Cert.KernelIdeal.Fold Cert.Cosine

variable (m : (ℓ : Loc nD τ sig) → Buf (Elt Ideal) ℓ) (ρ : Dev nD → PrngReg)

/-- The table over the four arrays as the launch finds them. -/
abbrev result (c : Dev nD) : FVec Ideal S8192x8192 .f32 :=
  table (leftArr m c) (rightArr m c) (leftNorms m c) (rightNorms m c)

/-- What a writing-back point writes is its tile of the table. -/
theorem flushed_is_table (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have hN := point_lt t
  obtain ⟨-, -, -, -, -, -, -, -, e0, e1⟩ := index_maps t
  rw [flushed4 m c t]
  funext y
  obtain ⟨p, q, rfl⟩ : ∃ (p : Fin 1024) (q : Fin 1024), y = ix2 p q := ⟨y 0, y 1, eq_ix2 y⟩
  obtain ⟨R, hR⟩ : ∃ R : Fin 8192, R.val = 1024 * (t.val / 64) + p.val := ⟨⟨_, by omega⟩, rfl⟩
  obtain ⟨S, hS⟩ : ∃ S : Fin 8192, S.val = 1024 * (t.val / 8 % 8) + q.val := ⟨⟨_, by omega⟩, rfl⟩
  have hemb : ((cfg0.win 4).blk t).view.emb (ix2 p q) = ix2 R S := by
    funext a
    apply Fin.ext
    match a with
    | ⟨0, _⟩ => show win0_4.index t (0 : Fin 2) * 1024 + 1 * p.val = R.val; rw [e0, hR]; omega
    | ⟨1, _⟩ => show win0_4.index t (1 : Fin 2) * 1024 + 1 * q.val = S.val; rw [e1, hS]; omega
  show (outsAt0 m c t.val t.isLt).1 (ix2 p q) = result m c (((cfg0.win 4).blk t).view.emb (ix2 p q))
  rw [hemb, out_at_last m c t h7]
  refine (Payload.epilogue_apply (iblk m c 2 t) (iblk m c 3 t) _ p q).trans ?_
  rw [acc_at_last m c t h7 p q R S hR hS, leftNorm_tile m c t p R hR, rightNorm_tile m c t q S hS]
  rfl

/-- An entry of the result lies in point `t`'s tile iff each coordinate lies in the tile's range. -/
theorem mem_tile (t : Fin cfg0.N) (i : S8192x8192.Idx) :
    i ∈ ((cfg0.win 4).blk t).view.set
      ↔ ∀ a : Fin 2, win0_4.index t a * S1024x1024.size a ≤ (i a).val ∧ (i a).val < win0_4.index t a * S1024x1024.size a + S1024x1024.size a := by
  show i ∈ ((View.whole main_v9).slice (win0_4.rect t)).set ↔ _
  rw [View.set_slice_whole, Rect.mem_set_unit]
  exact Iff.rfl

/-- Every entry of the result lies in the tile some writing-back point writes. -/
theorem covered (i : S8192x8192.Idx) :
    ∃ t : Fin cfg0.N, (cfg0.win 4).flush t = true ∧ i ∈ ((cfg0.win 4).blk t).view.set := by
  have h0 : (i 0).val < 8192 := (i 0).isLt
  have h1 : (i 1).val < 8192 := (i 1).isLt
  have hlt : 64 * ((i 0).val / 1024) + 8 * ((i 1).val / 1024) + 7 < cfg0.N := lt_of_lt_of_eq (by omega) N_0.symm
  refine ⟨⟨64 * ((i 0).val / 1024) + 8 * ((i 1).val / 1024) + 7, hlt⟩, (flush0_4 _).mpr (by show (64 * ((i 0).val / 1024) + 8 * ((i 1).val / 1024) + 7) % 8 = 7; omega), ?_⟩
  rw [mem_tile]
  obtain ⟨-, -, -, -, -, -, -, -, e0, e1⟩ := index_maps ⟨64 * ((i 0).val / 1024) + 8 * ((i 1).val / 1024) + 7, hlt⟩
  intro a
  match a with
  | ⟨0, _⟩ =>
    show win0_4.index _ (0 : Fin 2) * 1024 ≤ (i 0).val ∧ (i 0).val < win0_4.index _ (0 : Fin 2) * 1024 + 1024
    rw [e0]
    show (64 * ((i 0).val / 1024) + 8 * ((i 1).val / 1024) + 7) / 64 * 1024 ≤ (i 0).val ∧ (i 0).val < (64 * ((i 0).val / 1024) + 8 * ((i 1).val / 1024) + 7) / 64 * 1024 + 1024
    omega
  | ⟨1, _⟩ =>
    show win0_4.index _ (1 : Fin 2) * 1024 ≤ (i 1).val ∧ (i 1).val < win0_4.index _ (1 : Fin 2) * 1024 + 1024
    rw [e1]
    show (64 * ((i 0).val / 1024) + 8 * ((i 1).val / 1024) + 7) / 8 % 8 * 1024 ≤ (i 1).val ∧ (i 1).val < (64 * ((i 0).val / 1024) + 8 * ((i 1).val / 1024) + 7) / 8 % 8 * 1024 + 1024
    omega

/-- The result array after the run: the table over the arrays as the launch finds them. -/
theorem final (c : Dev nD) : (dats m 0 c).arrAt 4 cfg0.N = result m c :=
  (dats m 0 c).arrAt_eq_of_cover 4 (result m c) (flushed_is_table m c) covered

/-- The run, read: the result array at the table of the arguments and their clamped row norms, the arguments
    unchanged. -/
theorem run : θ_run defs (onTc (τ := τ) (main (F := Ideal))) ⟨m, fun _ => 0, ρ⟩ fun r => ∀ c : Dev nD,
      r.2.mem ((c : Thread nD τ).loc main_v9)
        = table (m ((c : Thread nD τ).loc main_arg0)) (m ((c : Thread nD τ).loc main_arg1))
            (rowNorms (m ((c : Thread nD τ).loc main_arg0)))
            (transpose S1x8192 [1, 0] (rowNorms (m ((c : Thread nD τ).loc main_arg1))) transposes_S8192x1_S1x8192_1_0)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by
      show table (leftArr m c) (rightArr m c) (leftNorms m c) (rightNorms m c) = _
      rw [leftArr_eq m c, rightArr_eq m c, leftNorms_eq m c, rightNorms_eq m c])), (h c).2⟩)
    (run_blocks m ρ)

end Cert.KernelIdeal.KernelValue

end
-- ==== Proof.RefValue.lean ====
/-
  The reference's result is the table.

  Read one operation at a time, the reference divides the product of the two matrices — the left one times the
  transpose of the right one, entry (r, c) the inner product of their rows r and c — by the product of the column of
  left norms, broadcast along the columns, with the row of right norms (the column transposed), broadcast along the
  rows.  Entry (r, c) is therefore the inner product over the product of the r-th left norm and the c-th right norm:
  the table's entry, with the reference's own two norm arrays in the norms' places.
-/
import proofs.«161089_j46729244180934_1_alg».proof.Proof.Gen.ReferenceIdeal.Read
import proofs.«161089_j46729244180934_1_alg».proof.Proof.Spec

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Cosine

/-- The reference's result, as a function of its two arguments, is the table over its own norm arrays. -/
theorem result_is_table (x0 x1 : (⟨S8192x4096, .f32⟩ : BufTy).Contents (Elt Ideal)) :
    val_main_v11 (F := Ideal) x0 x1 = table x0 x1 (val_main_v2 (F := Ideal) x0) (val_main_v7 (F := Ideal) x1) := by
  funext i
  obtain ⟨r, c, rfl⟩ : ∃ (r : Fin 8192) (c : Fin 8192), i = ix2 r c := ⟨i 0, i 1, eq_ix2 i⟩
  have e8 : idx_main_v8 (ix2 r c) = ix2 r 0 :=
    funext fun a => Fin.ext (by match a with | ⟨0, _⟩ => rfl | ⟨1, _⟩ => rfl)
  have e9 : idx_main_v9 (ix2 r c) = ix2 0 c :=
    funext fun a => Fin.ext (by match a with | ⟨0, _⟩ => rfl | ⟨1, _⟩ => rfl)
  have el : ∀ k : Fin 4096, lidx_main_v6 (ix2 r c) k = ix2 r k := fun k =>
    funext fun a => Fin.ext (by match a with | ⟨0, _⟩ => rfl | ⟨1, _⟩ => rfl)
  have er : ∀ k : Fin 4096, ridx_main_v6 (ix2 r c) k = ix2 c k := fun k =>
    funext fun a => Fin.ext (by match a with | ⟨0, _⟩ => rfl | ⟨1, _⟩ => rfl)
  rw [val_main_v11_apply, val_main_v6_apply, val_main_v10_apply, val_main_v8_apply, val_main_v9_apply, table_apply]
  simp only [e8, e9, el, er, Ideal.hostDivf_def, Ideal.mulf_def]
  rfl

end Cert.ReferenceIdeal.RefValue

end
-- ==== Proof.lean ====
/-
  Cosine similarity of every row of an 8192 × 4096 matrix `x` with every row of an 8192 × 4096 matrix `w`:

      out[r, c] = (Σ_k x[r, k] · w[c, k]) / (max(‖x[r, ·]‖, ε) · max(‖w[c, ·]‖, ε)).

  The tiled program computes the row norms on the host, converts both matrices to a narrower float format, and runs
  a grid of 8 × 8 × 8 points over 1024 × 1024 output tiles: along the last grid axis it adds the products of
  1024 × 512 tiles into an accumulator that is reset at the axis's first point, and at its last point divides the
  accumulator by the outer product of the two norm tiles.  The reference does one product of the whole matrices
  and one division by the outer product of the norm vectors.

  Over the extended reals the two agree entry by entry.  A change of float format is the identity there; the
  accumulator after eight chunks is the inner product over all 4096 columns, because regrouping a finite sum needs
  only commutativity and associativity of `+` (no finiteness of the inputs is used); the division is the same
  function in both programs; and the norms are computed by the same host operations in both, so they are never
  opened.  The three frames are the generated ones (the reference's is its run with the result dropped), and the
  idealization rewrote nothing.
-/
import proofs.«161089_j46729244180934_1_alg».proof.Defs
import proofs.«161089_j46729244180934_1_alg».proof.Proof.Gen.Kernel
import proofs.«161089_j46729244180934_1_alg».proof.Proof.Gen.Kernel.Skeleton
import proofs.«161089_j46729244180934_1_alg».proof.Proof.Gen.Kernel.Launch
import proofs.«161089_j46729244180934_1_alg».proof.Proof.Gen.Kernel.Points
import proofs.«161089_j46729244180934_1_alg».proof.Proof.Gen.Kernel.Frame
import proofs.«161089_j46729244180934_1_alg».proof.Proof.Gen.KernelIdeal
import proofs.«161089_j46729244180934_1_alg».proof.Proof.Gen.KernelIdeal.Skeleton
import proofs.«161089_j46729244180934_1_alg».proof.Proof.Gen.KernelIdeal.Launch
import proofs.«161089_j46729244180934_1_alg».proof.Proof.Gen.KernelIdeal.Points
import proofs.«161089_j46729244180934_1_alg».proof.Proof.Gen.KernelIdeal.Frame
import proofs.«161089_j46729244180934_1_alg».proof.Proof.Gen.ReferenceIdeal
import proofs.«161089_j46729244180934_1_alg».proof.Proof.Gen.Pre_finite_inputs
import proofs.«161089_j46729244180934_1_alg».proof.Proof.Gen.KernelIdeal.Value
import proofs.«161089_j46729244180934_1_alg».proof.Proof.Gen.ReferenceIdeal.Run
import proofs.«161089_j46729244180934_1_alg».proof.Proof.Gen.ReferenceIdeal.Read
import proofs.«161089_j46729244180934_1_alg».proof.Proof.KernelValue
import proofs.«161089_j46729244180934_1_alg».proof.Proof.RefValue
import Idealize.ShloMosaic.Adequacy
import Idealize.ShloMosaic.Init

noncomputable section

namespace Cert.Proof

open Idealize.ShloMosaic Idealize.ShloMosaic.TcCoe Idealize.SL.Sem

/-! ## The two programs compute the row norms by the same operations -/

/-- The reference's column of left norms is the tiled program's. -/
theorem leftNorms_agree (A : FVec Ideal (⟨2, ![8192, 4096]⟩ : Shape) .f32) :
    Cert.ReferenceIdeal.Read.val_main_v2 (F := Ideal) A = Cert.KernelIdeal.Blocks.rowNorms A := rfl

open Cert.KernelIdeal Cert.KernelIdeal.Facts₀ in
/-- The reference's row of right norms is the tiled program's: the same column, transposed. -/
theorem rightNorms_agree (A : FVec Ideal (⟨2, ![8192, 4096]⟩ : Shape) .f32) :
    Cert.ReferenceIdeal.Read.val_main_v7 (F := Ideal) A
      = transpose S1x8192 [1, 0] (Cert.KernelIdeal.Blocks.rowNorms A) transposes_S8192x1_S1x8192_1_0 := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the table of the arguments and their clamped row norms. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_is_table, (hagree c).1, (hagree c).2,
    leftNorms_agree, rightNorms_agree]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
